-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x1x512 : Shape := ⟨4, ![1024, 1, 1, 512]⟩
abbrev S1x1x1x256 : Shape := ⟨4, ![1, 1, 1, 256]⟩
abbrev S1x1x1x256x512 : Shape := ⟨5, ![1, 1, 1, 256, 512]⟩
abbrev S_ : Shape := ⟨0, ![]⟩

class Facts : Prop where
  bcast_S_S1024x1x1x512 : S_.BroadcastsInDim S1024x1x1x512 (![] : Fin 0 → Fin S1024x1x1x512.rank)
  reducesTo_S1024x1x1x512_S_d0_1_2_3 : S1024x1x1x512.ReducesTo [0, 1, 2, 3] S_
  h_S_ : 0 < S_.numel
  bcast_S_S1x1x1x256 : S_.BroadcastsInDim S1x1x1x256 (![] : Fin 0 → Fin S1x1x1x256.rank)
  reducesTo_S1x1x1x256_S_d0_1_2_3 : S1x1x1x256.ReducesTo [0, 1, 2, 3] S_
  bcast_S_S1x1x1x256x512 : S_.BroadcastsInDim S1x1x1x256x512 (![] : Fin 0 → Fin S1x1x1x256x512.rank)
  reducesTo_S1x1x1x256x512_S_d0_1_2_3_4 : S1x1x1x256x512.ReducesTo [0, 1, 2, 3, 4] S_

variable [Facts]

def fn_part1 {F : FTy → Type} [FloatOps F] (main_v13 : IVec S_ 1) (main_v16 : IVec S1x1x1x256x512 1) : IVec S_ 1 :=
  let main_c_5 : IVec S_ 1 := constantI S_ 1 1#1
  let main_v17 : IVec S_ 1 := (fun x v => Host.reduce IntOp.andi x v reducesTo_S1x1x1x256x512_S_d0_1_2_3_4 h_S_) main_v16 main_c_5
  let main_v18 : IVec S_ 1 := andi main_v13 main_v17
  main_v18

def fn {F : FTy → Type} [FloatOps F] (main_arg0 : FVec F S1024x1x1x512 .f32) (main_arg1 : FVec F S1x1x1x256 .f32) (main_arg2 : FVec F S1x1x1x256x512 .f32) (main_arg3 : FVec F S1x1x1x256x512 .f32) : IVec S_ 1 :=
  let main_v0 : FVec F S1024x1x1x512 .f32 := Host.absf main_arg0
  let main_cst : FVec F S_ .f32 := constant S_ .f32 0x7F800000#32
  let main_v1 : FVec F S1024x1x1x512 .f32 := broadcastInDim S1024x1x1x512 ![] bcast_S_S1024x1x1x512 main_cst
  let main_v2 : IVec S1024x1x1x512 1 := cmpf .olt main_v0 main_v1
  let main_c : IVec S_ 1 := constantI S_ 1 1#1
  let main_v3 : IVec S_ 1 := (fun x v => Host.reduce IntOp.andi x v reducesTo_S1024x1x1x512_S_d0_1_2_3 h_S_) main_v2 main_c
  let main_v4 : FVec F S1x1x1x256 .f32 := Host.absf main_arg1
  let main_cst_0 : FVec F S_ .f32 := constant S_ .f32 0x7F800000#32
  let main_v5 : FVec F S1x1x1x256 .f32 := broadcastInDim S1x1x1x256 ![] bcast_S_S1x1x1x256 main_cst_0
  let main_v6 : IVec S1x1x1x256 1 := cmpf .olt main_v4 main_v5
  let main_c_1 : IVec S_ 1 := constantI S_ 1 1#1
  let main_v7 : IVec S_ 1 := (fun x v => Host.reduce IntOp.andi x v reducesTo_S1x1x1x256_S_d0_1_2_3 h_S_) main_v6 main_c_1
  let main_v8 : IVec S_ 1 := andi main_v3 main_v7
  let main_v9 : FVec F S1x1x1x256x512 .f32 := Host.absf main_arg2
  let main_cst_2 : FVec F S_ .f32 := constant S_ .f32 0x7F800000#32
  let main_v10 : FVec F S1x1x1x256x512 .f32 := broadcastInDim S1x1x1x256x512 ![] bcast_S_S1x1x1x256x512 main_cst_2
  let main_v11 : IVec S1x1x1x256x512 1 := cmpf .olt main_v9 main_v10
  let main_c_3 : IVec S_ 1 := constantI S_ 1 1#1
  let main_v12 : IVec S_ 1 := (fun x v => Host.reduce IntOp.andi x v reducesTo_S1x1x1x256x512_S_d0_1_2_3_4 h_S_) main_v11 main_c_3
  let main_v13 : IVec S_ 1 := andi main_v8 main_v12
  let main_v14 : FVec F S1x1x1x256x512 .f32 := Host.absf main_arg3
  let main_cst_4 : FVec F S_ .f32 := constant S_ .f32 0x7F800000#32
  let main_v15 : FVec F S1x1x1x256x512 .f32 := broadcastInDim S1x1x1x256x512 ![] bcast_S_S1x1x1x256x512 main_cst_4
  let main_v16 : IVec S1x1x1x256x512 1 := cmpf .olt main_v14 main_v15
  fn_part1 (F := F) main_v13 main_v16
-- ==== Kernel.lean ====
abbrev S1024x1x1x512 : Shape := ⟨4, ![1024, 1, 1, 512]⟩
abbrev S1x1x1x256 : Shape := ⟨4, ![1, 1, 1, 256]⟩
abbrev S1x1x1x256x512 : Shape := ⟨5, ![1, 1, 1, 256, 512]⟩
abbrev S1024x512 : Shape := ⟨2, ![1024, 512]⟩
abbrev S256x512 : Shape := ⟨2, ![256, 512]⟩
abbrev S512x256 : Shape := ⟨2, ![512, 256]⟩
abbrev S_ : Shape := ⟨0, ![]⟩
abbrev S256 : Shape := ⟨1, ![256]⟩
abbrev S1 : Shape := ⟨1, ![1]⟩
abbrev S1x256 : Shape := ⟨2, ![1, 256]⟩
abbrev S1024x256 : Shape := ⟨2, ![1024, 256]⟩
abbrev S256x256 : Shape := ⟨2, ![256, 256]⟩
abbrev S1024x1x1x256 : Shape := ⟨4, ![1024, 1, 1, 256]⟩

abbrev nBuf : Space → Nat
  | .hbm => 47
  | .vmem => 7
  | .smem => 0
  | _ => 0

abbrev bufTy : (tb : Table) → Fin (tcTables nBuf tb) → BufTy
  | .hbm, ⟨0, _⟩ => ⟨S1024x1x1x512, .f32⟩
  | .hbm, ⟨1, _⟩ => ⟨S1x1x1x256, .f32⟩
  | .hbm, ⟨2, _⟩ => ⟨S1x1x1x256x512, .f32⟩
  | .hbm, ⟨3, _⟩ => ⟨S1x1x1x256x512, .f32⟩
  | .hbm, ⟨4, _⟩ => ⟨S1024x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S512x256, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S512x256, .f32⟩
  | .hbm, ⟨14, _⟩ => ⟨S256x512, .f32⟩
  | .hbm, ⟨15, _⟩ => ⟨S256x512, .f32⟩
  | .hbm, ⟨16, _⟩ => ⟨S_, .f32⟩
  | .hbm, ⟨17, _⟩ => ⟨S256, .f32⟩
  | .hbm, ⟨18, _⟩ => ⟨S256x512, .f32⟩
  | .hbm, ⟨19, _⟩ => ⟨S_, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S1x256, .f32⟩
  | .hbm, ⟨45, _⟩ => ⟨S1024x256, .f32⟩
  | .hbm, ⟨46, _⟩ => ⟨S1024x1x1x256, .f32⟩
  | .local _ .vmem, ⟨0, _⟩ => ⟨S256x512, .f32⟩
  | .local _ .vmem, ⟨1, _⟩ => ⟨S256x512, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S256x256, .f32⟩
  | .local _ .vmem, ⟨6, _⟩ => ⟨S256x256, .f32⟩
  | _, _ => ⟨S1024x1x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x1x1x512_S1024x512 : S1024x1x1x512.ShapeCasts S1024x512
  shapeCasts_S1x1x1x256x512_S256x512 : S1x1x1x256x512.ShapeCasts S256x512
  transposes_S256x512_S512x256_1_0 : S256x512.Transposes [1, 0] S512x256
  bcast_S_S256x512 : S_.BroadcastsInDim S256x512 (![] : Fin 0 → Fin S256x512.rank)
  reducesTo_S256x512_S256_d1 : S256x512.ReducesTo [1] S256
  h_S_ : 0 < S_.numel
  bcast_S_S256 : S_.BroadcastsInDim S256 (![] : Fin 0 → Fin S256.rank)
  shapeCasts_S1x1x1x256_S256 : S1x1x1x256.ShapeCasts S256
  reducesTo_S256_S_d0 : S256.ReducesTo [0] S_
  bcast_S_S1 : S_.BroadcastsInDim S1 (![] : Fin 0 → Fin S1.rank)
  bcast_S1_S256_0 : S1.BroadcastsInDim S256 (![0] : Fin 1 → Fin S256.rank)
  shapeCasts_S256_S1x256 : S256.ShapeCasts S1x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S1024x256_S1024x1x1x256 : S1024x256.ShapeCasts S1024x1x1x256
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S1024x256.size a
  hwx0_4 : ∀ i : grid0.Coords, EltTy.bits .f32 = 32 ∨ (Rect.block (s := S1024x256) S256x256.size (cc0_transform_4 i) (hinb0_4 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1x1x512 : Shape := ⟨4, ![1024, 1, 1, 512]⟩
abbrev S1x1x1x256 : Shape := ⟨4, ![1, 1, 1, 256]⟩
abbrev S1x1x1x256x512 : Shape := ⟨5, ![1, 1, 1, 256, 512]⟩
abbrev S1024x1x1x1x512 : Shape := ⟨5, ![1024, 1, 1, 1, 512]⟩
abbrev S1024x1x1x256x512 : Shape := ⟨5, ![1024, 1, 1, 256, 512]⟩
abbrev S_ : Shape := ⟨0, ![]⟩
abbrev S256 : Shape := ⟨1, ![256]⟩
abbrev S1 : Shape := ⟨1, ![1]⟩
abbrev S1024x1x1x256 : Shape := ⟨4, ![1024, 1, 1, 256]⟩

abbrev nBuf : Space → Nat
  | .hbm => 43
  | .vmem => 0
  | .smem => 0
  | _ => 0

abbrev bufTy : (tb : Table) → Fin (tcTables nBuf tb) → BufTy
  | .hbm, ⟨0, _⟩ => ⟨S1024x1x1x512, .f32⟩
  | .hbm, ⟨1, _⟩ => ⟨S1x1x1x256, .f32⟩
  | .hbm, ⟨2, _⟩ => ⟨S1x1x1x256x512, .f32⟩
  | .hbm, ⟨3, _⟩ => ⟨S1x1x1x256x512, .f32⟩
  | .hbm, ⟨4, _⟩ => ⟨S1024x1x1x1x512, .f32⟩
  | .hbm, ⟨5, _⟩ => ⟨S1024x1x1x256x512, .f32⟩
  | .hbm, ⟨6, _⟩ => ⟨S1024x1x1x256x512, .f32⟩
  | .hbm, ⟨7, _⟩ => ⟨S1024x1x1x256x512, .f32⟩
  | .hbm, ⟨8, _⟩ => ⟨S1x1x1x256x512, .f32⟩
  | .hbm, ⟨9, _⟩ => ⟨S_, .f32⟩
  | .hbm, ⟨10, _⟩ => ⟨S1x1x1x256, .f32⟩
  | .hbm, ⟨11, _⟩ => ⟨S_, .f32⟩
  | .hbm, ⟨12, _⟩ => ⟨S1x1x1x256, .f32⟩
  | .hbm, ⟨13, _⟩ => ⟨S1x1x1x256, .f32⟩
  | .hbm, ⟨14, _⟩ => ⟨S256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S256, .f32⟩
  | .hbm, ⟨28, _⟩ => ⟨S256, .f32⟩
  | .hbm, ⟨29, _⟩ => ⟨S1x1x1x256, .f32⟩
  | .hbm, ⟨30, _⟩ => ⟨S1024x1x1x256x512, .f32⟩
  | .hbm, ⟨31, _⟩ => ⟨S1x1x1x256x512, .f32⟩
  | .hbm, ⟨32, _⟩ => ⟨S1024x1x1x256x512, .f32⟩
  | .hbm, ⟨33, _⟩ => ⟨S1024x1x1x256x512, .f32⟩
  | .hbm, ⟨34, _⟩ => ⟨S_, .f32⟩
  | .hbm, ⟨35, _⟩ => ⟨S1024x1x1x256, .f32⟩
  | .hbm, ⟨36, _⟩ => ⟨S_, .f32⟩
  | .hbm, ⟨37, _⟩ => ⟨S1024x1x1x256, .f32⟩
  | .hbm, ⟨38, _⟩ => ⟨S1024x1x1x256, .f32⟩
  | .hbm, ⟨39, _⟩ => ⟨S1024x1x1x256, .f32⟩
  | .hbm, ⟨40, _⟩ => ⟨S1024x1x1x256, .f32⟩
  | .hbm, ⟨41, _⟩ => ⟨S1024x1x1x256, .f32⟩
  | .hbm, ⟨42, _⟩ => ⟨S1024x1x1x256, .f32⟩
  | _, _ => ⟨S1024x1x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S1024x1x1x512_S1024x1x1x1x512_0_1_2_4 : S1024x1x1x512.BroadcastsInDim S1024x1x1x1x512 (![0, 1, 2, 4] : Fin 4 → Fin S1024x1x1x1x512.rank)
  bcast_S1024x1x1x1x512_S1024x1x1x256x512_0_1_2_3_4 : S1024x1x1x1x512.BroadcastsInDim S1024x1x1x256x512 (![0, 1, 2, 3, 4] : Fin 5 → Fin S1024x1x1x256x512.rank)
  bcast_S1x1x1x256x512_S1024x1x1x256x512_0_1_2_3_4 : S1x1x1x256x512.BroadcastsInDim S1024x1x1x256x512 (![0, 1, 2, 3, 4] : Fin 5 → Fin S1024x1x1x256x512.rank)
  reducesTo_S1x1x1x256x512_S1x1x1x256_d4 : S1x1x1x256x512.ReducesTo [4] S1x1x1x256
  h_S_ : 0 < S_.numel
  bcast_S_S1x1x1x256 : S_.BroadcastsInDim S1x1x1x256 (![] : Fin 0 → Fin S1x1x1x256.rank)
  shapeCasts_S1x1x1x256_S256 : S1x1x1x256.ShapeCasts S256
  reducesTo_S256_S_d0 : S256.ReducesTo [0] S_
  bcast_S_S1 : S_.BroadcastsInDim S1 (![] : Fin 0 → Fin S1.rank)
  bcast_S1_S256_0 : S1.BroadcastsInDim S256 (![0] : Fin 1 → Fin S256.rank)
  shapeCasts_S256_S1x1x1x256 : S256.ShapeCasts S1x1x1x256
  reducesTo_S1024x1x1x256x512_S1024x1x1x256_d4 : S1024x1x1x256x512.ReducesTo [4] S1024x1x1x256
  bcast_S_S1024x1x1x256 : S_.BroadcastsInDim S1024x1x1x256 (![] : Fin 0 → Fin S1024x1x1x256.rank)
  bcast_S1x1x1x256_S1024x1x1x256_0_1_2_3 : S1x1x1x256.BroadcastsInDim S1024x1x1x256 (![0, 1, 2, 3] : Fin 4 → Fin S1024x1x1x256.rank)

variable [Facts₀]

class Facts : Prop extends Facts₀ where

variable [Facts]
-- ==== Proof.Payload.lean ====
/-
  What the kernel body stores, entry by entry.

  One grid point holds a tile of 256 samples xb (256 × 512), the two resident weight matrices
  w₁ (512 × 256: the squared precisions, transposed) and w₂ (512 × 256: −2 μ σ², transposed) and the bias row
  (1 × 256). At row r and component k the stored value is
      −½ · ( Σ_c xb[r,c]² · w₁[c,k]  +  Σ_c xb[r,c] · w₂[c,k] )  +  bias[0,k] :
  the two matrix products are plain sums over the 512 channels (the change of float format before them is the
  identity on the extended reals, and they accumulate into zero), and the bias row is laid along every row of the tile.
-/
import proofs.«114831_j75874892251650_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Density

open Cert.KernelIdeal Cert.KernelIdeal.Gen Idealize.ShloMosaic Idealize.ShloMosaic.ValueIdx

/-! ## The product's operand indices, axis by axis: rows × channels times channels × components -/

theorem lhs_row (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide),
    dif_pos (show (0 : Fin S256x512.rank) ∈ dot_S256x512_S512x256_S256x256_1_0_0_1_n_n.lhsNonContracting by decide)]
  rfl

theorem lhs_channel (i : S256x256.Idx) (q : dot_S256x512_S512x256_S256x256_1_0_0_1_n_n.contr.Idx) :
    (dot_S256x512_S512x256_S256x256_1_0_0_1_n_n.lhsIdx i q 1).val = (q ⟨0, by decide⟩).val :=
  dot_S256x512_S512x256_S256x256_1_0_0_1_n_n.lhsIdx_val_of_single rfl i q

theorem rhs_channel (i : S256x256.Idx) (q : dot_S256x512_S512x256_S256x256_1_0_0_1_n_n.contr.Idx) :
    (dot_S256x512_S512x256_S256x256_1_0_0_1_n_n.rhsIdx i q 0).val = (q ⟨0, by decide⟩).val :=
  dot_S256x512_S512x256_S256x256_1_0_0_1_n_n.rhsIdx_val_of_single rfl i q

theorem rhs_component (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide),
    dif_pos (show (1 : Fin S512x256.rank) ∈ dot_S256x512_S512x256_S256x256_1_0_0_1_n_n.rhsNonContracting by decide)]
  rfl

/-- The tile's matrix product into a zero accumulator, at row r and component k: the sum over the channels. -/
theorem product_apply {φ₁ φ₂ : FTy} (l : FVec Ideal S256x512 φ₁) (w : FVec Ideal S512x256 φ₂) (r k : Fin 256) :
    matmul dot_S256x512_S512x256_S256x256_1_0_0_1_n_n none l w (constant S256x256 .f32 0x00000000#32) (ix2 r k)
      = ∑ c : Fin 512, l (ix2 r c) * w (ix2 c k) := by
  simp only [matmul]
  rw [Ideal.matmul_constant_zero_apply, ← Equiv.sum_comp (contrEquiv1 dot_S256x512_S512x256_S256x256_1_0_0_1_n_n 512 rfl rfl).symm]
  refine Finset.sum_congr rfl fun c _ => ?_
  have hc := contrEquiv1_symm_val dot_S256x512_S512x256_S256x256_1_0_0_1_n_n 512 rfl rfl c
  have el : dot_S256x512_S512x256_S256x256_1_0_0_1_n_n.lhsIdx (ix2 r k) ((contrEquiv1 dot_S256x512_S512x256_S256x256_1_0_0_1_n_n 512 rfl rfl).symm c) = ix2 r c :=
    funext fun a => Fin.ext (by
      match a with
      | ⟨0, _⟩ => exact lhs_row _ _
      | ⟨1, _⟩ => exact (lhs_channel _ _).trans hc)
  have er : dot_S256x512_S512x256_S256x256_1_0_0_1_n_n.rhsIdx (ix2 r k) ((contrEquiv1 dot_S256x512_S512x256_S256x256_1_0_0_1_n_n 512 rfl rfl).symm c) = ix2 c k :=
    funext fun a => Fin.ext (by
      match a with
      | ⟨0, _⟩ => exact (rhs_channel _ _).trans hc
      | ⟨1, _⟩ => exact rhs_component _ _)
  rw [el, er]

/-- The bias row laid along every row of the tile. -/
theorem bias_row_apply (bs : FVec Ideal S1x256 .f32) (r k : Fin 256) :
    broadcastTo S256x256 bs broadcasts_S1x256_S256x256 (ix2 r k) = bs (ix2 (0 : Fin 1) k) :=
  broadcastTo_apply bs broadcasts_S1x256_S256x256 _ _ fun a => by
    match a with
    | ⟨0, _⟩ => rfl
    | ⟨1, _⟩ => rfl

/-- THE STORED ENTRY at row r, component k of a tile. -/
theorem stored_apply (xb : Vec Ideal S256x512 .f32) (w₁ w₂ : Vec Ideal S512x256 .f32) (bs : Vec Ideal S1x256 .f32) (r k : Fin 256) :
    k0_pay1 (F := Ideal) xb w₁ w₂ bs (ix2 r k)
      = Ideal.ofBits .f32 0xBF000000#32
          * ((∑ c : Fin 512, (xb (ix2 r c) * xb (ix2 r c)) * w₁ (ix2 c k)) + ∑ c : Fin 512, xb (ix2 r c) * w₂ (ix2 c k))
        + bs (ix2 (0 : Fin 1) k) := by
  unfold k0_pay1
  simp only [shapeCast_self]
  rw [addf_apply, mulf_apply, addf_apply, product_apply, product_apply, bias_row_apply]
  rfl

end Cert.KernelIdeal.Density

end
-- ==== Proof.Tiles.lean ====
/-
  From tiles to the whole array.

  The region runs four grid points; point t takes rows 256·t … 256·t + 255 of the sample matrix X (1024 × 512), the
  whole of both weight matrices W₁, W₂ (512 × 256) and of the bias row (1 × 256), and writes rows 256·t … 256·t + 255
  of the result (1024 × 256). So the four written tiles are the restrictions of ONE function of the launched arrays,
      result[b, k] = −½ · ( Σ_c X[b,c]² · W₁[c,k] + Σ_c X[b,c] · W₂[c,k] ) + bias[0,k],
  and they cover the result: after the region the result array IS that function.
-/
import proofs.«114831_j75874892251650_1_alg».proof.Proof.Gen.KernelIdeal.Frame
import proofs.«114831_j75874892251650_1_alg».proof.Proof.Payload
import Idealize.ShloMosaic.Lib.Pipeline.Value
import Idealize.ShloMosaic.Lib.ValueIdx

noncomputable section

namespace Cert.KernelIdeal.Density

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The region's result at sample b and component k, from the arrays it is launched on. -/
def entry (X : Vec Ideal S1024x512 .f32) (W₁ W₂ : Vec Ideal S512x256 .f32) (Bs : Vec Ideal S1x256 .f32) (b : Fin 1024) (k : Fin 256) : EReal :=
  Ideal.ofBits .f32 0xBF000000#32
      * ((∑ c : Fin 512, (X (ix2 b c) * X (ix2 b c)) * W₁ (ix2 c k)) + ∑ c : Fin 512, X (ix2 b c) * W₂ (ix2 c k))
    + Bs (ix2 (0 : Fin 1) k)

/-- The region's result as one array. -/
def tiled (X : Vec Ideal S1024x512 .f32) (W₁ W₂ : Vec Ideal S512x256 .f32) (Bs : Vec Ideal S1x256 .f32) : Vec Ideal S1024x256 .f32 :=
  fun j => entry X W₁ W₂ Bs ⟨(j 0).val, (j 0).isLt⟩ ⟨(j 1).val, (j 1).isLt⟩

/-- A tile's stored entry is the whole-array function at the entry's place o in the result, once each loaded block reads
    its array at the rows and columns o names. -/
theorem stored_eq_tiled (X : Vec Ideal S1024x512 .f32) (W₁ W₂ : Vec Ideal S512x256 .f32) (Bs : Vec Ideal S1x256 .f32)
    (xb : Vec Ideal S256x512 .f32) (w₁ w₂ : Vec Ideal S512x256 .f32) (bs : Vec Ideal S1x256 .f32) (r k : Fin 256) (o : S1024x256.Idx)
    (hx : ∀ ch : Fin 512, xb (ix2 r ch) = X (ix2 ⟨(o 0).val, (o 0).isLt⟩ ch))
    (hw₁ : ∀ ch : Fin 512, w₁ (ix2 ch k) = W₁ (ix2 ch ⟨(o 1).val, (o 1).isLt⟩))
    (hw₂ : ∀ ch : Fin 512, w₂ (ix2 ch k) = W₂ (ix2 ch ⟨(o 1).val, (o 1).isLt⟩))
    (hb : bs (ix2 (0 : Fin 1) k) = Bs (ix2 (0 : Fin 1) ⟨(o 1).val, (o 1).isLt⟩)) :
    k0_pay1 (F := Ideal) xb w₁ w₂ bs (ix2 r k) = tiled X W₁ W₂ Bs o := by
  rw [stored_apply]
  unfold tiled entry
  simp only [hx, hw₁, hw₂, hb]

/-! ## The launched arrays and the blocks of a point, at their literal types -/

abbrev sampleArr (c : Dev nD) : Vec Ideal S1024x512 .f32 := V m c main_v0
abbrev precArr (c : Dev nD) : Vec Ideal S512x256 .f32 := V m c main_v4
abbrev crossArr (c : Dev nD) : Vec Ideal S512x256 .f32 := V m c main_v8
abbrev biasArr (c : Dev nD) : Vec Ideal S1x256 .f32 := V m c main_v22

abbrev sampleBlk (c : Dev nD) (t : Fin cfg0.N) : Vec Ideal S256x512 .f32 := iblk m c 0 t
abbrev precBlk (c : Dev nD) (t : Fin cfg0.N) : Vec Ideal S512x256 .f32 := iblk m c 1 t
abbrev crossBlk (c : Dev nD) (t : Fin cfg0.N) : Vec Ideal S512x256 .f32 := iblk m c 2 t
abbrev biasBlk (c : Dev nD) (t : Fin cfg0.N) : Vec Ideal S1x256 .f32 := iblk m c 3 t

theorem hz : (![0, 0] : Fin 2 → Nat) = fun _ => 0 := funext fun a => by fin_cases a <;> rfl

/-- The printed index maps over the grid: the sample window moves with the result window along the rows; the
    weights and the bias stay at block (0, 0); the result's column block is 0. -/
theorem index_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 3 ∧ win0_4.index t (1 : Fin 2) = 0 :=
  (by decide +kernel : ∀ t : Fin grid0.N, _)

/-- Every row block of the result is some point's. -/
theorem index_onto : ∀ q : Fin 4, ∃ t : Fin cfg0.N, win0_4.index t = ![q.val, 0] :=
  (by decide +kernel : ∀ q : Fin 4, ∃ t : Fin grid0.N, win0_4.index t = ![q.val, 0])

/-- WHAT POINT t WRITES BACK is tile t of the whole-array function of the arrays as the region finds them. -/
theorem flushed_eq (c : Dev nD) (t : Fin cfg0.N) :
    (dats m 0 c).flushed 4 t
      = ((cfg0.win 4).blk t).view.read (Elt Ideal) (tiled (sampleArr m c) (precArr m c) (crossArr m c) (biasArr m c)) := by
  show (cfg0.win 4).cut (grid0.coords t) ((dats m 0 c).after 4 t) = _
  rw [after0_4]
  unfold out0_4
  rw [View.canon_unit_zero hz]
  simp only [View.ld_unit_zero (S := S256x512) hz, View.ld_unit_zero (S := S512x256) hz, View.ld_unit_zero (S := S1x256) hz]
  obtain ⟨e00, e01, e10, e11, e20, e21, e30, e31, e40, e41⟩ := index_facts t
  funext j
  obtain ⟨r, k, rfl⟩ : ∃ (r k : Fin 256), j = ix2 r k := ⟨j 0, j 1, eq_ix2 j⟩
  show k0_pay1 (F := Ideal) (sampleBlk m c t) (precBlk m c t) (crossBlk m c t) (biasBlk m c t) (ix2 r k)
    = tiled (sampleArr m c) (precArr m c) (crossArr m c) (biasArr m c) (((cfg0.win 4).blk t).view.emb (ix2 r k))
  refine stored_eq_tiled (sampleArr m c) (precArr m c) (crossArr m c) (biasArr m c) (sampleBlk m c t) (precBlk m c t) (crossBlk m c t)
    (biasBlk m c t) r k (((cfg0.win 4).blk t).view.emb (ix2 r k)) ?_ ?_ ?_ ?_
  · intro ch
    have h : (((cfg0.win 0).blk t).view.emb (ix2 r ch) : S1024x512.Idx)
        = (ix2 (⟨((((cfg0.win 4).blk t).view.emb (ix2 r k)) 0).val, ((((cfg0.win 4).blk t).view.emb (ix2 r k)) 0).isLt⟩ : Fin 1024) ch : S1024x512.Idx) := by
      funext a; apply Fin.ext
      match a with
      | ⟨0, _⟩ => show win0_0.index t (0 : Fin 2) * 256 + 1 * r.val = win0_4.index t (0 : Fin 2) * 256 + 1 * r.val; omega
      | ⟨1, _⟩ => show win0_0.index t (1 : Fin 2) * 512 + 1 * ch.val = ch.val; omega
    show sampleArr m c (((cfg0.win 0).blk t).view.emb (ix2 r ch)) = sampleArr m c _
    exact congrArg (sampleArr m c) h
  · intro ch
    have h : (((cfg0.win 1).blk t).view.emb (ix2 ch k) : S512x256.Idx)
        = (ix2 ch (⟨((((cfg0.win 4).blk t).view.emb (ix2 r k)) 1).val, ((((cfg0.win 4).blk t).view.emb (ix2 r k)) 1).isLt⟩ : Fin 256) : S512x256.Idx) := by
      funext a; apply Fin.ext
      match a with
      | ⟨0, _⟩ => show win0_1.index t (0 : Fin 2) * 512 + 1 * ch.val = ch.val; omega
      | ⟨1, _⟩ => show win0_1.index t (1 : Fin 2) * 256 + 1 * k.val = win0_4.index t (1 : Fin 2) * 256 + 1 * k.val; omega
    show precArr m c (((cfg0.win 1).blk t).view.emb (ix2 ch k)) = precArr m c _
    exact congrArg (precArr m c) h
  · intro ch
    have h : (((cfg0.win 2).blk t).view.emb (ix2 ch k) : S512x256.Idx)
        = (ix2 ch (⟨((((cfg0.win 4).blk t).view.emb (ix2 r k)) 1).val, ((((cfg0.win 4).blk t).view.emb (ix2 r k)) 1).isLt⟩ : Fin 256) : S512x256.Idx) := by
      funext a; apply Fin.ext
      match a with
      | ⟨0, _⟩ => show win0_2.index t (0 : Fin 2) * 512 + 1 * ch.val = ch.val; omega
      | ⟨1, _⟩ => show win0_2.index t (1 : Fin 2) * 256 + 1 * k.val = win0_4.index t (1 : Fin 2) * 256 + 1 * k.val; omega
    show crossArr m c (((cfg0.win 2).blk t).view.emb (ix2 ch k)) = crossArr m c _
    exact congrArg (crossArr m c) h
  · have h : (((cfg0.win 3).blk t).view.emb (ix2 (0 : Fin 1) k) : S1x256.Idx)
        = (ix2 (0 : Fin 1) (⟨((((cfg0.win 4).blk t).view.emb (ix2 r k)) 1).val, ((((cfg0.win 4).blk t).view.emb (ix2 r k)) 1).isLt⟩ : Fin 256) : S1x256.Idx) := by
      funext a; apply Fin.ext
      match a with
      | ⟨0, _⟩ => show win0_3.index t (0 : Fin 2) * 1 + 1 * 0 = 0; omega
      | ⟨1, _⟩ => show win0_3.index t (1 : Fin 2) * 256 + 1 * k.val = win0_4.index t (1 : Fin 2) * 256 + 1 * k.val; omega
    show biasArr m c (((cfg0.win 3).blk t).view.emb (ix2 (0 : Fin 1) k)) = biasArr m c _
    exact congrArg (biasArr m c) h

/-- An index of the result is in point t's tile iff each coordinate is in the tile's range on its axis. -/
theorem mem_tile (t : Fin cfg0.N) (i : S1024x256.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v23).slice (win0_4.rect t)).set ↔ _
  rw [View.set_slice_whole, Rect.mem_set_unit]
  exact Iff.rfl

/-- The tiles cover the result: row b lies in the tile of point b / 256. -/
theorem covered (i : S1024x256.Idx) : ∃ t : Fin cfg0.N, (cfg0.win 4).flush t = true ∧ i ∈ ((cfg0.win 4).blk t).view.set := by
  have hi0 : (i 0).val < 1024 := (i 0).isLt
  have hi1 : (i 1).val < 256 := (i 1).isLt
  obtain ⟨t, ht⟩ := index_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_tile]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- THE RESULT ARRAY after the region: the whole-array function of the arrays as the region finds them. -/
theorem result_array (c : Dev nD) :
    (dats m 0 c).arrAt 4 cfg0.N = tiled (sampleArr m c) (precArr m c) (crossArr m c) (biasArr m c) :=
  (dats m 0 c).arrAt_eq_of_cover 4 _ (fun t _ => flushed_eq m c t) covered

end Cert.KernelIdeal.Density

end
-- ==== Proof.Prepared.lean ====
/-
  What the program prepares before the region, as functions of its four arguments, and each read at an entry.

  The samples x are flattened to a matrix (1024 × 512), the means μ and the precisions σ to matrices (256 × 512). Then
      W₁ = (σ²)ᵀ,    W₂ = (−2 · μ · σ²)ᵀ      (512 × 256 each),
      bias[k] = −½ · Σ_c μ[k,c]² σ[k,c]²  +  ( Σ_c log σ[k,c] + C )  +  lw[k]      (a row of 256),
  C the Gaussian normalisation constant and lw the log-softmax of the flattened mixing weights. Each host sum starts from
  the zero the reduce is given; the reshapes, the transposes and the broadcasts of scalars only move indices.
-/
import proofs.«114831_j75874892251650_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Density

open Cert.KernelIdeal Cert.KernelIdeal.Gen Idealize.ShloMosaic Idealize.ShloMosaic.ValueIdx

/-! ## The prepared arrays -/

/-- A (1, 1, 1, 256, 512) parameter array as a 256 × 512 matrix. -/
def asMatrix (a : Vec Ideal S1x1x1x256x512 .f32) : FVec Ideal S256x512 .f32 :=
  shapeCast S256x512 a shapeCasts_S1x1x1x256x512_S256x512

/-- The samples as a 1024 × 512 matrix. -/
def samples (x : Vec Ideal S1024x1x1x512 .f32) : FVec Ideal S1024x512 .f32 :=
  shapeCast S1024x512 x shapeCasts_S1024x1x1x512_S1024x512

/-- W₁: the squared precisions, transposed. -/
def precT (s : Vec Ideal S1x1x1x256x512 .f32) : FVec Ideal S512x256 .f32 :=
  transpose S512x256 [1, 0] (mulf (asMatrix s) (asMatrix s)) transposes_S256x512_S512x256_1_0

/-- W₂: −2 · μ · σ², transposed. -/
def crossT (mu s : Vec Ideal S1x1x1x256x512 .f32) : FVec Ideal S512x256 .f32 :=
  transpose S512x256 [1, 0]
    (mulf (mulf (broadcastInDim S256x512 ![] bcast_S_S256x512 (constant (F := Ideal) S_ .f32 0xC0000000#32)) (asMatrix mu))
      (mulf (asMatrix s) (asMatrix s))) transposes_S256x512_S512x256_1_0

/-- The mixing weights as a vector of 256. -/
def weights (p : Vec Ideal S1x1x1x256 .f32) : FVec Ideal S256 .f32 :=
  shapeCast S256 p shapeCasts_S1x1x1x256_S256

/-- A vector less its maximum (the maximum taken from −∞, as the called function takes it). -/
def shifted (w : FVec Ideal S256 .f32) : FVec Ideal S256 .f32 :=
  subf w
    (broadcastInDim S256 ![0] bcast_S1_S256_0
      (broadcastInDim S1 ![] bcast_S_S1
        (maximumf (constant (F := Ideal) S_ .f32 0xFF800000#32)
          (Host.reduce FloatOps.maximumf w (constant (F := Ideal) S_ .f32 0xFF800000#32) reducesTo_S256_S_d0 h_S_))))

/-- The log-softmax of a vector of 256, operation by operation as the called function computes it. -/
def logSoftmax (w : FVec Ideal S256 .f32) : FVec Ideal S256 .f32 :=
  subf (shifted w)
    (broadcastInDim S256 ![0] bcast_S1_S256_0
      (Host.log
        (broadcastInDim S1 ![] bcast_S_S1
          (Host.reduceAdd (Host.exp (shifted w)) (constant (F := Ideal) S_ .f32 0x00000000#32) reducesTo_S256_S_d0 h_S_))))

/-- The bias row, over the log-mixing-weight vector lw. -/
def biasRow (mu s : Vec Ideal S1x1x1x256x512 .f32) (lw : FVec Ideal S256 .f32) : FVec Ideal S1x256 .f32 :=
  shapeCast S1x256
    (addf
      (addf
        (mulf (broadcastInDim S256 ![] bcast_S_S256 (constant (F := Ideal) S_ .f32 0xBF000000#32))
          (Host.reduceAdd (mulf (mulf (asMatrix mu) (asMatrix mu)) (mulf (asMatrix s) (asMatrix s)))
            (constant (F := Ideal) S_ .f32 0x00000000#32) reducesTo_S256x512_S256_d1 h_S_))
        (addf
          (Host.reduceAdd (Host.log (asMatrix s)) (constant (F := Ideal) S_ .f32 0x00000000#32) reducesTo_S256x512_S256_d1 h_S_)
          (broadcastInDim S256 ![] bcast_S_S256 (constant (F := Ideal) S_ .f32 0xC3EB3F8E#32))))
      lw)
    shapeCasts_S256_S1x256

/-! ## Each read at an entry -/

theorem asMatrix_apply (a : Vec Ideal S1x1x1x256x512 .f32) (k : Fin 256) (ch : Fin 512) :
    asMatrix a (ix2 k ch) = a (ix5 (0 : Fin 1) (0 : Fin 1) (0 : Fin 1) k ch) := by
  unfold asMatrix
  exact shapeCast_apply a shapeCasts_S1x1x1x256x512_S256x512 _ _ (by
    rewrite [Shape.rowMajor_val_five, Shape.rowMajor_val_two]
    show (((0 * 1 + 0) * 1 + 0) * 256 + k.val) * 512 + ch.val = k.val * 512 + ch.val
    omega)

theorem samples_apply (x : Vec Ideal S1024x1x1x512 .f32) (b : Fin 1024) (ch : Fin 512) :
    samples x (ix2 b ch) = x (ix4 b (0 : Fin 1) (0 : Fin 1) ch) := by
  unfold samples
  exact shapeCast_apply x shapeCasts_S1024x1x1x512_S1024x512 _ _ (by
    rewrite [Shape.rowMajor_val_four, Shape.rowMajor_val_two]
    show ((b.val * 1 + 0) * 1 + 0) * 512 + ch.val = b.val * 512 + ch.val
    omega)

theorem precT_apply (s : Vec Ideal S1x1x1x256x512 .f32) (ch : Fin 512) (k : Fin 256) :
    precT s (ix2 ch k)
      = s (ix5 (0 : Fin 1) (0 : Fin 1) (0 : Fin 1) k ch) * s (ix5 (0 : Fin 1) (0 : Fin 1) (0 : Fin 1) k ch) := by
  unfold precT
  rw [transpose_ix2_apply, mulf_apply, asMatrix_apply]

theorem crossT_apply (mu s : Vec Ideal S1x1x1x256x512 .f32) (ch : Fin 512) (k : Fin 256) :
    crossT mu s (ix2 ch k)
      = (Ideal.ofBits .f32 0xC0000000#32 * mu (ix5 (0 : Fin 1) (0 : Fin 1) (0 : Fin 1) k ch))
          * (s (ix5 (0 : Fin 1) (0 : Fin 1) (0 : Fin 1) k ch) * s (ix5 (0 : Fin 1) (0 : Fin 1) (0 : Fin 1) k ch)) := by
  unfold crossT
  rw [transpose_ix2_apply, mulf_apply, mulf_apply, mulf_apply, asMatrix_apply, asMatrix_apply]
  rfl

/-- A host sum over the channels of a 256 × 512 matrix, at component k: the given zero plus the sum of the row. -/
theorem channelSum_apply (y : FVec Ideal S256x512 .f32) (k : Fin 256) :
    Host.reduceAdd y (constant (F := Ideal) S_ .f32 0x00000000#32) reducesTo_S256x512_S256_d1 h_S_ (ix1 k)
      = Ideal.ofBits .f32 0x00000000#32 + ∑ ch : Fin 512, y (ix2 k ch) := by
  simp only [Host.reduceAdd, Ideal.hostReduceAdd_def]
  rw [Ideal.hostReduceAdd_single reducesTo_S256x512_S256_d1 (by decide)]
  refine congrArg (_ + ·) (Finset.sum_congr rfl fun ch _ => ?_)
  exact congrArg y (funext fun a => Fin.ext (by match a with | ⟨0, _⟩ => rfl | ⟨1, _⟩ => rfl))

theorem hostLog_apply {S : Shape} (y : FVec Ideal S .f32) (i : S.Idx) : Host.log y i = Ideal.log (y i) := rfl

theorem biasRow_apply (mu s : Vec Ideal S1x1x1x256x512 .f32) (lw : FVec Ideal S256 .f32) (k : Fin 256) :
    biasRow mu s lw (ix2 (0 : Fin 1) k)
      = (Ideal.ofBits .f32 0xBF000000#32
            * (Ideal.ofBits .f32 0x00000000#32
                + ∑ ch : Fin 512, (mu (ix5 (0 : Fin 1) (0 : Fin 1) (0 : Fin 1) k ch) * mu (ix5 (0 : Fin 1) (0 : Fin 1) (0 : Fin 1) k ch))
                    * (s (ix5 (0 : Fin 1) (0 : Fin 1) (0 : Fin 1) k ch) * s (ix5 (0 : Fin 1) (0 : Fin 1) (0 : Fin 1) k ch)))
          + ((Ideal.ofBits .f32 0x00000000#32 + ∑ ch : Fin 512, Ideal.log (s (ix5 (0 : Fin 1) (0 : Fin 1) (0 : Fin 1) k ch)))
              + Ideal.ofBits .f32 0xC3EB3F8E#32))
        + lw (ix1 k) := by
  unfold biasRow
  rw [shapeCast_apply _ shapeCasts_S256_S1x256 (ix2 (0 : Fin 1) k) (ix1 k) (by
    rewrite [Shape.rowMajor_val_one, Shape.rowMajor_val_two]
    show k.val = 0 * 256 + k.val
    omega)]
  rw [addf_apply, addf_apply, mulf_apply, addf_apply, channelSum_apply, channelSum_apply]
  simp only [mulf_apply, hostLog_apply, asMatrix_apply]
  rfl

end Cert.KernelIdeal.Density

end
-- ==== Proof.Launched.lean ====
/-
  The arrays the region is launched on ARE the prepared arrays of the program's four arguments: the host lines before
  the region, read back. The called log-softmax writes each of its values through a typed view of its buffer; those views
  are identities and are removed in pairs, so that the log-softmax of the flattened mixing weights appears as the one
  vector it is — the same operations, on the same flattening, as the reference program's log-softmax stage.
-/
import proofs.«114831_j75874892251650_1_alg».proof.Proof.Gen.KernelIdeal.Frame
import proofs.«114831_j75874892251650_1_alg».proof.Proof.Gen.ReferenceIdeal.Read
import proofs.«114831_j75874892251650_1_alg».proof.Proof.Prepared
import Idealize.ShloMosaic.Lib.StableHlo.Run

noncomputable section

namespace Cert.KernelIdeal.Density

open Cert.KernelIdeal Cert.KernelIdeal.Gen Idealize.ShloMosaic Idealize.ShloMosaic.TcCoe Idealize.SL.Sem Idealize.ShloMosaic.StableHlo

/-- The kernel program's log-softmax of the flattened weights is the reference program's log-softmax stage. -/
theorem logSoftmax_weights (p : Vec Ideal S1x1x1x256 .f32) :
    logSoftmax (weights p) = Cert.ReferenceIdeal.Read.val_main_v9 (F := Ideal) p := rfl

variable (m : (ℓ : Loc nD τ sig) → Buf (Elt Ideal) ℓ)

theorem found_samples (c : Dev nD) :
    (V m c main_v0 : S1024x512.Idx → EReal) = samples (m ((c.tc : Thread nD τ).loc main_arg0)) := by
  dsimp only [V, V0]
  simp only [hostOps0, hostOps0_1, hostOps0_2, List.flatten_cons, List.flatten_nil, List.append_nil, List.cons_append, List.nil_append]
  after_results_simp
  rfl

theorem found_precT (c : Dev nD) :
    (V m c main_v4 : S512x256.Idx → EReal) = precT (m ((c.tc : Thread nD τ).loc main_arg3)) := by
  dsimp only [V, V0]
  simp only [hostOps0, hostOps0_1, hostOps0_2, List.flatten_cons, List.flatten_nil, List.append_nil, List.cons_append, List.nil_append]
  after_results_simp
  rfl

theorem found_crossT (c : Dev nD) :
    (V m c main_v8 : S512x256.Idx → EReal)
      = crossT (m ((c.tc : Thread nD τ).loc main_arg2)) (m ((c.tc : Thread nD τ).loc main_arg3)) := by
  dsimp only [V, V0]
  simp only [hostOps0, hostOps0_1, hostOps0_2, List.flatten_cons, List.flatten_nil, List.append_nil, List.cons_append, List.nil_append]
  after_results_simp
  rfl

theorem found_biasRow (c : Dev nD) :
    (V m c main_v22 : S1x256.Idx → EReal)
      = biasRow (m ((c.tc : Thread nD τ).loc main_arg2)) (m ((c.tc : Thread nD τ).loc main_arg3))
          (logSoftmax (weights (m ((c.tc : Thread nD τ).loc main_arg1)))) := by
  dsimp only [V, V0]
  simp only [hostOps0, hostOps0_1, hostOps0_2, List.flatten_cons, List.flatten_nil, List.append_nil, List.cons_append, List.nil_append]
  after_results_simp
  simp only [TRef.toBuf, TRef.ofBuf, cast_cast, cast_eq]
  rfl

end Cert.KernelIdeal.Density

end
-- ==== Proof.RefDensity.lean ====
/-
  The reference's result, entry by entry.

  At sample b and component k the reference program computes
      −½ · Σ_c (x[b,c] − μ[k,c])² σ[k,c]²  +  ( Σ_c log σ[k,c] + C )  +  logsoftmax(π)[k],
  the sums over the 512 channels starting from the zero the program's reduce is given; its broadcasts and reshapes only
  move indices. The log-softmax vector of the flattened mixing weights is kept as the one stage it is.
-/
import proofs.«114831_j75874892251650_1_alg».proof.Proof.Gen.ReferenceIdeal.Read
import Idealize.ShloMosaic.Lib.ValueIdx

noncomputable section

namespace Cert.ReferenceIdeal.Density

open Cert.ReferenceIdeal Cert.ReferenceIdeal.Read Idealize.ShloMosaic Idealize.ShloMosaic.ValueIdx

/-! ## Where the composed broadcasts and reshapes read their operands -/

theorem sample_index (b : Fin 1024) (u v : Fin 1) (k : Fin 256) (ch : Fin 512) :
    idx_main_v0 (idx_main_v1 (idx_main_v15 (ix4 b u v k) ch)) = ix4 b (0 : Fin 1) (0 : Fin 1) ch :=
  funext fun a => Fin.ext (by match a with | ⟨0, _⟩ => rfl | ⟨1, _⟩ => rfl | ⟨2, _⟩ => rfl | ⟨3, _⟩ => rfl)

theorem mean_index (b : Fin 1024) (u v : Fin 1) (k : Fin 256) (ch : Fin 512) :
    idx_main_v2 (idx_main_v15 (ix4 b u v k) ch) = ix5 (0 : Fin 1) (0 : Fin 1) (0 : Fin 1) k ch :=
  funext fun a => Fin.ext (by match a with | ⟨0, _⟩ => rfl | ⟨1, _⟩ => rfl | ⟨2, _⟩ => rfl | ⟨3, _⟩ => rfl | ⟨4, _⟩ => rfl)

theorem precision_index (b : Fin 1024) (u v : Fin 1) (k : Fin 256) (ch : Fin 512) :
    idx_main_v13 (idx_main_v15 (ix4 b u v k) ch) = ix5 (0 : Fin 1) (0 : Fin 1) (0 : Fin 1) k ch :=
  funext fun a => Fin.ext (by match a with | ⟨0, _⟩ => rfl | ⟨1, _⟩ => rfl | ⟨2, _⟩ => rfl | ⟨3, _⟩ => rfl | ⟨4, _⟩ => rfl)

theorem logdet_index (b : Fin 1024) (u v : Fin 1) (k : Fin 256) (ch : Fin 512) :
    idx_main_v5 (idx_main_v18 (ix4 b u v k)) ch = ix5 (0 : Fin 1) (0 : Fin 1) (0 : Fin 1) k ch :=
  funext fun a => Fin.ext (by match a with | ⟨0, _⟩ => rfl | ⟨1, _⟩ => rfl | ⟨2, _⟩ => rfl | ⟨3, _⟩ => rfl | ⟨4, _⟩ => rfl)

theorem weight_index (b : Fin 1024) (u v : Fin 1) (k : Fin 256) :
    idx_main_v10 (idx_main_v20 (ix4 b u v k)) = ix1 k :=
  funext fun a => Fin.ext (by
    match a with
    | ⟨0, _⟩ => show ((0 * 1 + 0) * 1 + 0) * 256 + k.val = k.val; omega)

/-- THE REFERENCE'S ENTRY at sample b, component k. -/
theorem result_apply (x : Vec Ideal S1024x1x1x512 .f32) (p : Vec Ideal S1x1x1x256 .f32) (mu s : Vec Ideal S1x1x1x256x512 .f32)
    (b : Fin 1024) (u v : Fin 1) (k : Fin 256) :
    val_main_v21 (F := Ideal) x p mu s (ix4 b u v k)
      = (Ideal.ofBits .f32 0xBF000000#32
            * (Ideal.ofBits .f32 0x00000000#32
                + ∑ ch : Fin 512, ((x (ix4 b (0 : Fin 1) (0 : Fin 1) ch) - mu (ix5 (0 : Fin 1) (0 : Fin 1) (0 : Fin 1) k ch))
                      * (x (ix4 b (0 : Fin 1) (0 : Fin 1) ch) - mu (ix5 (0 : Fin 1) (0 : Fin 1) (0 : Fin 1) k ch)))
                    * (s (ix5 (0 : Fin 1) (0 : Fin 1) (0 : Fin 1) k ch) * s (ix5 (0 : Fin 1) (0 : Fin 1) (0 : Fin 1) k ch)))
          + ((Ideal.ofBits .f32 0x00000000#32 + ∑ ch : Fin 512, Ideal.log (s (ix5 (0 : Fin 1) (0 : Fin 1) (0 : Fin 1) k ch)))
              + Ideal.ofBits .f32 0xC3EB3F8E#32))
        + val_main_v9 (F := Ideal) p (ix1 k) := by
  rw [val_main_v21_apply, val_main_v19_apply, val_main_v17_apply, val_main_v16_apply, val_main_cst_2_apply, val_main_v15_apply,
    val_main_cst_1_apply, val_main_v18_apply, val_main_v7_apply, val_main_v5_apply, val_main_cst_apply, val_main_v6_apply,
    val_main_cst_0_apply, val_main_v20_apply, val_main_v10_apply, weight_index]
  simp only [val_main_v14_apply, val_main_v11_apply, val_main_v3_apply, val_main_v1_apply, val_main_v0_apply, val_main_v2_apply,
    val_main_v13_apply, val_main_v12_apply, val_main_v4_apply, sample_index, mean_index, precision_index, logdet_index,
    Ideal.ofBits_def, Ideal.addf_def, Ideal.subf_def, Ideal.mulf_def, Ideal.hostUnary_log_def]

end Cert.ReferenceIdeal.Density

end
-- ==== Proof.Expansion.lean ====
/-
  The one law of real arithmetic this certificate rests on, and the three float constants it meets.

  For a sample row x, a component's mean row μ and precision row σ (all real), the Mahalanobis-style exponent
  expands:   Σ_c (x_c − μ_c)² σ_c²  =  Σ_c x_c² σ_c²  +  Σ_c x_c · (−2 μ_c σ_c²)  +  Σ_c μ_c² σ_c².
  The kernel computes the first two sums as two matrix products and folds −½ times the third into a per-component
  bias together with the log-determinant term L and the log-mixing-weight P; the reference computes −½ times the
  left side and adds L and P. On the extended reals addition is associative and commutative at every value, so L
  and P may be anything (the logarithm of a non-positive precision is −∞ or junk on both sides alike); only the
  quadratic part needs x, μ, σ finite, where it is the identity above in ℝ.
-/
import Idealize.ShloMosaic.PureOps.Ideal
import Mathlib.Tactic.Ring
import Mathlib.Tactic.NormNum

noncomputable section

namespace Cert.Mixture

open Idealize.ShloMosaic

/-- A finite sum of real numbers, each read as an extended real, is the real sum read as an extended real. -/
theorem coe_sum {ι : Type} (t : Finset ι) (f : ι → ℝ) : (∑ c ∈ t, (f c : EReal)) = ((∑ c ∈ t, f c : ℝ) : EReal) := by
  classical
  induction t using Finset.induction_on with
  | empty => simp
  | insert a t ha ih => rw [Finset.sum_insert ha, Finset.sum_insert ha, ih, EReal.coe_add]

/-- The expansion of the square, with the two tails L and P carried along: the kernel's grouping on the left, the
    reference's on the right. -/
theorem expand_square {n : ℕ} (x mu s : Fin n → ℝ) (L P : EReal) :
    ((-1 / 2 : ℝ) : EReal) * ((∑ c, ((x c : EReal) * (x c : EReal)) * ((s c : EReal) * (s c : EReal)))
        + ∑ c, (x c : EReal) * ((((-2 : ℝ) : EReal) * (mu c : EReal)) * ((s c : EReal) * (s c : EReal))))
      + (((((-1 / 2 : ℝ) : EReal) * (0 + ∑ c, ((mu c : EReal) * (mu c : EReal)) * ((s c : EReal) * (s c : EReal)))) + L) + P)
    = ((((-1 / 2 : ℝ) : EReal) * (0 + ∑ c, (((x c : EReal) - (mu c : EReal)) * ((x c : EReal) - (mu c : EReal))) * ((s c : EReal) * (s c : EReal)))) + L) + P := by
  simp only [← EReal.coe_mul, ← EReal.coe_sub, coe_sum, ← EReal.coe_add, zero_add]
  rw [← add_assoc, ← add_assoc, ← EReal.coe_add]
  congr 3
  rw [← mul_add, ← Finset.sum_add_distrib, ← Finset.sum_add_distrib]
  congr 1
  exact Finset.sum_congr rfl fun c _ => by ring

/-- The pattern of `-0.5` denotes the real −1/2. -/
theorem ofBits_neg_half : Ideal.ofBits .f32 0xBF000000#32 = ((-1 / 2 : ℝ) : EReal) := by
  simp [Ideal.ofBits, Ideal.ieee, -EReal.coe_mul]; norm_num

/-- The pattern of `-2.0` denotes the real −2. -/
theorem ofBits_neg_two : Ideal.ofBits .f32 0xC0000000#32 = ((-2 : ℝ) : EReal) := by
  simp [Ideal.ofBits, Ideal.ieee, -EReal.coe_mul]; norm_num

/-- The pattern of `+0.0` denotes 0. -/
theorem ofBits_zero : Ideal.ofBits .f32 0x00000000#32 = 0 := by
  simp [Ideal.ofBits, Ideal.ieee]

end Cert.Mixture

end
-- ==== Proof.Finite.lean ====
/-
  The precondition, read back: every entry of the samples, the means and the precisions is a real number.

  The predicate is the conjunction of four tests "all |a| < +∞", one per argument array; a conjunction of bits that is 1
  has every bit 1, an and-reduction that is 1 met only 1s, and |a| < +∞ on the extended reals leaves out exactly the
  two infinities.
-/
import proofs.«114831_j75874892251650_1_alg».proof.Pre_finite_inputs
import proofs.«114831_j75874892251650_1_alg».proof.Proof.Gen.Pre_finite_inputs
import Idealize.ShloMosaic.Lib.ReduceAll
import Idealize.ShloMosaic.Lib.ValueIdx

noncomputable section

namespace Cert.Pre_finite_inputs.Density

open Cert.Pre_finite_inputs Idealize.ShloMosaic

instance : Subsingleton S_.Idx := ⟨fun a b => funext fun d => d.elim0⟩

/-- |a| < +∞ on the extended reals: a is a real number. -/
theorem real_of_abs_lt_inf (a : EReal)
    (h : FloatOps.cmpf (F := Ideal) (φ := .f32) .olt (FloatOps.hostAbsf (F := Ideal) (φ := .f32) a)
          (FloatOps.ofBits (F := Ideal) .f32 0x7F800000#32) = 1#1) :
    ∃ r : ℝ, a = (r : EReal) := by
  have htop : Ideal.ofBits .f32 0x7F800000#32 = ⊤ := by simp [Ideal.ofBits, Ideal.ieee]
  change Ideal.cmp .olt (max a (-a)) (Ideal.ofBits .f32 0x7F800000#32) = 1#1 at h
  rw [htop] at h
  unfold Ideal.cmp at h
  induction a using EReal.rec with
  | bot => simp at h
  | top => simp at h
  | coe r => exact ⟨r, rfl⟩

/-- Under the precondition the samples, the means and the precisions hold real numbers only. -/
theorem real_of_pre (x : FVec Ideal S1024x1x1x512 .f32) (p : FVec Ideal S1x1x1x256 .f32) (mu s : FVec Ideal S1x1x1x256x512 .f32)
    (h : fn (F := Ideal) x p mu s = fun _ => 1#1) :
    (∀ i, ∃ r : ℝ, x i = (r : EReal)) ∧ (∀ i, ∃ r : ℝ, mu i = (r : EReal)) ∧ (∀ i, ∃ r : ℝ, s i = (r : EReal)) := by
  have h0 := congrFun h ValueIdx.ix0
  dsimp only [fn, fn_part1] at h0
  obtain ⟨h13, h17⟩ := IntOp.andi_eq_one.1 h0
  obtain ⟨h8, h12⟩ := IntOp.andi_eq_one.1 h13
  obtain ⟨h3, -⟩ := IntOp.andi_eq_one.1 h8
  exact ⟨fun i => real_of_abs_lt_inf _ (Host.reduce_andi_all _ _ _ _ _ h3 i),
    fun i => real_of_abs_lt_inf _ (Host.reduce_andi_all _ _ _ _ _ h12 i),
    fun i => real_of_abs_lt_inf _ (Host.reduce_andi_all _ _ _ _ _ h17 i)⟩

end Cert.Pre_finite_inputs.Density

end
-- ==== Proof.Density.lean ====
/-
  The kernel program's result, and that it is the reference program's.

  After the region the program only reshapes the result matrix (1024 × 256) to (1024, 1, 1, 256). So at sample b and
  component k the kernel program returns
      −½ · ( Σ_c x² σ² + Σ_c x · (−2 μ σ²) ) + ( −½ · Σ_c μ² σ² + (Σ_c log σ + C) + lw[k] ),
  and the reference −½ · Σ_c (x − μ)² σ² + (Σ_c log σ + C) + lw[k]: equal by the expansion of the square, for real
  x, μ, σ — which the precondition gives — whatever the two tails are.
-/
import proofs.«114831_j75874892251650_1_alg».proof.Proof.Tiles
import proofs.«114831_j75874892251650_1_alg».proof.Proof.Launched
import proofs.«114831_j75874892251650_1_alg».proof.Proof.RefDensity
import proofs.«114831_j75874892251650_1_alg».proof.Proof.Expansion
import proofs.«114831_j75874892251650_1_alg».proof.Proof.Finite
import Idealize.ShloMosaic.Lib.StableHlo.Run

noncomputable section

namespace Cert.KernelIdeal.Density

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

/-- The kernel program's result is the reference's stage for its result, for real samples, means and precisions. -/
theorem value_eq (x : Vec Ideal S1024x1x1x512 .f32) (p : Vec Ideal S1x1x1x256 .f32) (mu s : Vec Ideal S1x1x1x256x512 .f32)
    (hx : ∀ i, ∃ r : ℝ, x i = (r : EReal)) (hmu : ∀ i, ∃ r : ℝ, mu i = (r : EReal)) (hs : ∀ i, ∃ r : ℝ, s i = (r : EReal)) :
    shapeCast S1024x1x1x256 (tiled (samples x) (precT s) (crossT mu s) (biasRow mu s (logSoftmax (weights p))))
        shapeCasts_S1024x256_S1024x1x1x256
      = Cert.ReferenceIdeal.Read.val_main_v21 (F := Ideal) x p mu s := by
  funext i
  obtain ⟨b, u, v, k, rfl⟩ : ∃ (b : Fin 1024) (u v : Fin 1) (k : Fin 256), i = ix4 b u v k := ⟨i 0, i 1, i 2, i 3, eq_ix4 i⟩
  rw [Cert.ReferenceIdeal.Density.result_apply, ← logSoftmax_weights]
  rw [shapeCast_apply _ shapeCasts_S1024x256_S1024x1x1x256 (ix4 b u v k) (ix2 b k) (by
    rewrite [Shape.rowMajor_val_two, Shape.rowMajor_val_four]
    show b.val * 256 + k.val = ((b.val * 1 + u.val) * 1 + v.val) * 256 + k.val
    have hu := u.isLt
    have hv := v.isLt
    omega)]
  show entry (samples x) (precT s) (crossT mu s) (biasRow mu s (logSoftmax (weights p))) b k = _
  unfold entry
  simp only [samples_apply, precT_apply, crossT_apply, biasRow_apply]
  choose xr hxr using hx
  choose mr hmr using hmu
  choose sr hsr using hs
  simp only [hxr, hmr, hsr, Cert.Mixture.ofBits_neg_half, Cert.Mixture.ofBits_neg_two, Cert.Mixture.ofBits_zero]
  exact Cert.Mixture.expand_square (fun ch => xr (ix4 b (0 : Fin 1) (0 : Fin 1) ch))
    (fun ch => mr (ix5 (0 : Fin 1) (0 : Fin 1) (0 : Fin 1) k ch)) (fun ch => sr (ix5 (0 : Fin 1) (0 : Fin 1) (0 : Fin 1) k ch)) _ _

variable (m : (ℓ : Loc nD τ sig) → Buf (Elt Ideal) ℓ) (ρ : Dev nD → PrngReg)

/-- The line after the region: the returned array is the result matrix, reshaped. -/
theorem tail_eq (c : Dev nD) :
    Pipeline.afterTail₀ cfgs (dats m) 0 (V0 m) [hostOps1] c main_v24
      = shapeCast S1024x1x1x256 ((dats m 0 c).arrAt 4 cfg0.N) shapeCasts_S1024x256_S1024x1x1x256 := by
  unfold Pipeline.afterTail₀
  show StableHlo.after hostOps1 _ (Proc.devRef .tc main_v24) = _
  after_results
  have e := Pipeline.withArrays_arr spec0 launch0.win.arr_inj c (V0 m c) (fun w => (dats m 0 c).arrAt w cfg0.N) 4
  funext i
  show shapeCast S1024x1x1x256
      (Pipeline.withArrays spec0 c (V0 m c) (fun w => (dats m 0 c).arrAt w cfg0.N) (Proc.devRef .tc (Pipeline.arrRef spec0 4)))
      shapeCasts_S1024x256_S1024x1x1x256 i = _
  rw [e]

/-- What the kernel program returns: the reference's stage for its result, read at the kernel's own arguments. -/
theorem returned_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Pipeline.afterTail₀ cfgs (dats m) 0 (V0 m) [hostOps1] c main_v24
      = Cert.ReferenceIdeal.Read.val_main_v21 (F := Ideal) (m ((c.tc : Thread nD τ).loc main_arg0)) (m ((c.tc : Thread nD τ).loc main_arg1))
          (m ((c.tc : Thread nD τ).loc main_arg2)) (m ((c.tc : Thread nD τ).loc main_arg3)) := by
  rw [tail_eq, result_array]
  show shapeCast S1024x1x1x256 (tiled (V m c main_v0) (V m c main_v4) (V m c main_v8) (V m c main_v22)) shapeCasts_S1024x256_S1024x1x1x256 = _
  rw [found_samples, found_precT, found_crossT, found_biasRow]
  obtain ⟨hx, hmu, hs⟩ := Cert.Pre_finite_inputs.Density.real_of_pre _ _ _ _ hpre
  exact value_eq _ _ _ _ hx hmu hs

/-- THE KERNEL PROGRAM'S RUN, read as a value: under the precondition every weakly fair execution terminates with the
    returned array at the reference's function of the arguments, the arguments unchanged. -/
theorem run
    (hpre : ∀ c : Dev nD, Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    θ_run defs (onTc (τ := τ) (main (F := Ideal))) ⟨m, fun _ => 0, ρ⟩ fun r => ∀ c : Dev nD,
      r.2.mem ((c.tc : Thread nD τ).loc main_v24)
          = Cert.ReferenceIdeal.Read.val_main_v21 (F := Ideal) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v24 (Pipeline.mem_restRefs_of main_v24 (by decide) (by decide))).trans (returned_eq m c (hpre c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Density

end
-- ==== Proof.lean ====
/-
  A Gaussian-mixture log-density, computed two ways, is one function on the extended reals.

  For 1024 samples x (512 channels each) and 256 components with means μ, per-channel precisions σ and unnormalised
  mixing weights π, the reference returns, at sample b and component k,
      −½ · Σ_c (x[b,c] − μ[k,c])² σ[k,c]²  +  ( Σ_c log σ[k,c] + C )  +  logsoftmax(π)[k] .
  The kernel program expands the square: on the host it prepares W₁ = (σ²)ᵀ, W₂ = (−2 μ σ²)ᵀ and the bias row
  −½ · Σ_c μ² σ² + (Σ_c log σ + C) + logsoftmax(π); the region then computes, tile of 256 samples by tile,
  −½ · ( x² · W₁ + x · W₂ ) + bias with two matrix products; the result is reshaped.
  Modules: Expansion (the law in ℝ and the constants), Payload (the stored entry of a tile), Tiles (the tiles are one
  whole-array function and cover the result), Prepared and Launched (what the host lines prepare), RefDensity (the
  reference's entry), Finite (the precondition gives real x, μ, σ), Density (the two results are equal).
  The three runs: the two kernel programs' frames are the generated ones; the reference's is its generated run.
-/
import proofs.«114831_j75874892251650_1_alg».proof.Defs
import proofs.«114831_j75874892251650_1_alg».proof.Proof.Gen.Kernel
import proofs.«114831_j75874892251650_1_alg».proof.Proof.Gen.Kernel.Skeleton
import proofs.«114831_j75874892251650_1_alg».proof.Proof.Gen.Kernel.Launch
import proofs.«114831_j75874892251650_1_alg».proof.Proof.Gen.Kernel.Points
import proofs.«114831_j75874892251650_1_alg».proof.Proof.Gen.Kernel.Frame
import proofs.«114831_j75874892251650_1_alg».proof.Proof.Gen.KernelIdeal
import proofs.«114831_j75874892251650_1_alg».proof.Proof.Gen.KernelIdeal.Skeleton
import proofs.«114831_j75874892251650_1_alg».proof.Proof.Gen.KernelIdeal.Launch
import proofs.«114831_j75874892251650_1_alg».proof.Proof.Gen.KernelIdeal.Points
import proofs.«114831_j75874892251650_1_alg».proof.Proof.Gen.KernelIdeal.Frame
import proofs.«114831_j75874892251650_1_alg».proof.Proof.Gen.ReferenceIdeal
import proofs.«114831_j75874892251650_1_alg».proof.Proof.Gen.ReferenceIdeal.Run
import proofs.«114831_j75874892251650_1_alg».proof.Proof.Gen.ReferenceIdeal.Read
import proofs.«114831_j75874892251650_1_alg».proof.Proof.Gen.Pre_finite_inputs
import proofs.«114831_j75874892251650_1_alg».proof.Proof.Density
import Idealize.ShloMosaic.Adequacy
import Idealize.ShloMosaic.Init

noncomputable section

namespace Cert.Proof

open Idealize.ShloMosaic Idealize.SL.Sem

/-- The kernel program as printed terminates and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end at the reference's function of them. -/
theorem algebraic : Cert.algebraic_KernelIdeal_ReferenceIdeal := by
  intro m ρ m' ρ' hpre hagree
  refine ⟨fun c => Cert.ReferenceIdeal.Read.val_main_v21 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Density.run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.Read.val_main_v21_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
